-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2x1024 : Shape := ⟨3, ![32768, 2, 1024]⟩
abbrev S_ : Shape := ⟨0, ![]⟩

class Facts : Prop where
  bcast_S_S32768x2x1024 : S_.BroadcastsInDim S32768x2x1024 (![] : Fin 0 → Fin S32768x2x1024.rank)
  reducesTo_S32768x2x1024_S_d0_1_2 : S32768x2x1024.ReducesTo [0, 1, 2] S_
  h_S_ : 0 < S_.numel

variable [Facts]

def fn {F : FTy → Type} [FloatOps F] (main_arg0 : FVec F S32768x2x1024 .f32) (main_arg1 : FVec F S32768x2x1024 .f32) : IVec S_ 1 :=
  let main_v0 : FVec F S32768x2x1024 .f32 := Host.absf main_arg0
  let main_cst : FVec F S_ .f32 := constant S_ .f32 0x7F800000#32
  let main_v1 : FVec F S32768x2x1024 .f32 := broadcastInDim S32768x2x1024 ![] bcast_S_S32768x2x1024 main_cst
  let main_v2 : IVec S32768x2x1024 1 := cmpf .olt main_v0 main_v1
  let main_c : IVec S_ 1 := constantI S_ 1 1#1
  let main_v3 : IVec S_ 1 := (fun x v => Host.reduce IntOp.andi x v reducesTo_S32768x2x1024_S_d0_1_2 h_S_) main_v2 main_c
  let main_v4 : FVec F S32768x2x1024 .f32 := Host.absf main_arg1
  let main_cst_0 : FVec F S_ .f32 := constant S_ .f32 0x7F800000#32
  let main_v5 : FVec F S32768x2x1024 .f32 := broadcastInDim S32768x2x1024 ![] bcast_S_S32768x2x1024 main_cst_0
  let main_v6 : IVec S32768x2x1024 1 := cmpf .olt main_v4 main_v5
  let main_c_1 : IVec S_ 1 := constantI S_ 1 1#1
  let main_v7 : IVec S_ 1 := (fun x v => Host.reduce IntOp.andi x v reducesTo_S32768x2x1024_S_d0_1_2 h_S_) main_v6 main_c_1
  let main_v8 : IVec S_ 1 := andi main_v3 main_v7
  main_v8
-- ==== Kernel.lean ====
abbrev S32768x2x1024 : Shape := ⟨3, ![32768, 2, 1024]⟩
abbrev S32768x2048 : Shape := ⟨2, ![32768, 2048]⟩
abbrev S32768 : Shape := ⟨1, ![32768]⟩
abbrev S256x2048 : Shape := ⟨2, ![256, 2048]⟩
abbrev S256 : Shape := ⟨1, ![256]⟩
abbrev S256x1024 : Shape := ⟨2, ![256, 1024]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32768x2x1024, .f32⟩
  | .hbm, ⟨1, _⟩ => ⟨S32768x2x1024, .f32⟩
  | .hbm, ⟨2, _⟩ => ⟨S32768x2048, .f32⟩
  | .hbm, ⟨3, _⟩ => ⟨S32768x2048, .f32⟩
  | .hbm, ⟨4, _⟩ => ⟨S32768, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256, .f32⟩
  | .local _ .vmem, ⟨5, _⟩ => ⟨S256, .f32⟩
  | _, _ => ⟨S32768x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32768x2x1024_S32768x2048 : S32768x2x1024.ShapeCasts S32768x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  slices_S256x2048_o0_0_S256x1024 : S256x2048.Slices ![0, 0] S256x1024
  slices_S256x2048_o0_1024_S256x1024 : S256x2048.Slices ![0, 1024] S256x1024
  reduces_S256x1024_S256 : S256x1024.Reduces [1] S256
  inb_S256_S256_0 : ∀ a, (![0] : Fin 1 → Nat) a + S256.size a ≤ S256.size a
  h_S256 : 0 < S256.numel
  reducesTo_S32768_S_d0 : S32768.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .f32 = 32 ∨ (Rect.block (s := S32768x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S32768x2048.size a
  hwx0_1 : ∀ i : grid0.Coords, EltTy.bits .f32 = 32 ∨ (Rect.block (s := S32768x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S32768.size a
  hwx0_2 : ∀ i : grid0.Coords, EltTy.bits .f32 = 32 ∨ (Rect.block (s := S32768) S256.size (cc0_transform_2 i) (hinb0_2 i)).WholeWords (EltTy.packing .f32)

variable [Facts₀]

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x2x1024 : Shape := ⟨3, ![32768, 2, 1024]⟩
abbrev S_ : Shape := ⟨0, ![]⟩
abbrev S32768x2 : Shape := ⟨2, ![32768, 2]⟩
abbrev S32768x2x1 : Shape := ⟨3, ![32768, 2, 1]⟩
abbrev S32768x2x2 : Shape := ⟨3, ![32768, 2, 2]⟩
abbrev S32768x1x1 : Shape := ⟨3, ![32768, 1, 1]⟩
abbrev S32768 : Shape := ⟨1, ![32768]⟩

abbrev nBuf : Space → Nat
  | .hbm => 45
  | .vmem => 0
  | .smem => 0
  | _ => 0

abbrev bufTy : (tb : Table) → Fin (tcTables nBuf tb) → BufTy
  | .hbm, ⟨0, _⟩ => ⟨S32768x2x1024, .f32⟩
  | .hbm, ⟨1, _⟩ => ⟨S32768x2x1024, .f32⟩
  | .hbm, ⟨2, _⟩ => ⟨S32768x2x1024, .f32⟩
  | .hbm, ⟨3, _⟩ => ⟨S_, .f32⟩
  | .hbm, ⟨4, _⟩ => ⟨S32768x2, .f32⟩
  | .hbm, ⟨5, _⟩ => ⟨S32768x2x1, .f32⟩
  | .hbm, ⟨6, _⟩ => ⟨S32768x2x1, .f32⟩
  | .hbm, ⟨7, _⟩ => ⟨S_, .f32⟩
  | .hbm, ⟨8, _⟩ => ⟨S32768x2x1, .f32⟩
  | .hbm, ⟨9, _⟩ => ⟨S32768x2x1, .f32⟩
  | .hbm, ⟨10, _⟩ => ⟨S32768x2x1024, .f32⟩
  | .hbm, ⟨11, _⟩ => ⟨S32768x2x1024, .f32⟩
  | .hbm, ⟨12, _⟩ => ⟨S32768x2x1024, .f32⟩
  | .hbm, ⟨13, _⟩ => ⟨S_, .f32⟩
  | .hbm, ⟨14, _⟩ => ⟨S32768x2, .f32⟩
  | .hbm, ⟨15, _⟩ => ⟨S32768x2x1, .f32⟩
  | .hbm, ⟨16, _⟩ => ⟨S32768x2x1, .f32⟩
  | .hbm, ⟨17, _⟩ => ⟨S_, .f32⟩
  | .hbm, ⟨18, _⟩ => ⟨S32768x2x1, .f32⟩
  | .hbm, ⟨19, _⟩ => ⟨S32768x2x1, .f32⟩
  | .hbm, ⟨20, _⟩ => ⟨S32768x2x1024, .f32⟩
  | .hbm, ⟨21, _⟩ => ⟨S32768x2x1024, .f32⟩
  | .hbm, ⟨22, _⟩ => ⟨S32768x2x2, .f32⟩
  | .hbm, ⟨23, _⟩ => ⟨S32768x1x1, .f32⟩
  | .hbm, ⟨24, _⟩ => ⟨S32768, .f32⟩
  | .hbm, ⟨25, _⟩ => ⟨S32768x1x1, .f32⟩
  | .hbm, ⟨26, _⟩ => ⟨S32768, .f32⟩
  | .hbm, ⟨27, _⟩ => ⟨S32768, .f32⟩
  | .hbm, ⟨28, _⟩ => ⟨S32768x1x1, .f32⟩
  | .hbm, ⟨29, _⟩ => ⟨S32768, .f32⟩
  | .hbm, ⟨30, _⟩ => ⟨S32768x1x1, .f32⟩
  | .hbm, ⟨31, _⟩ => ⟨S32768, .f32⟩
  | .hbm, ⟨32, _⟩ => ⟨S32768, .f32⟩
  | .hbm, ⟨33, _⟩ => ⟨S32768, .i1⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S_, .f32⟩
  | .hbm, ⟨39, _⟩ => ⟨S32768, .f32⟩
  | .hbm, ⟨40, _⟩ => ⟨S32768, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S32768x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S32768x2x1024_S32768x2_d2 : S32768x2x1024.ReducesTo [2] S32768x2
  h_S_ : 0 < S_.numel
  bcast_S32768x2_S32768x2x1_0_1 : S32768x2.BroadcastsInDim S32768x2x1 (![0, 1] : Fin 2 → Fin S32768x2x1.rank)
  bcast_S_S32768x2x1 : S_.BroadcastsInDim S32768x2x1 (![] : Fin 0 → Fin S32768x2x1.rank)
  bcast_S32768x2x1_S32768x2x1024_0_1_2 : S32768x2x1.BroadcastsInDim S32768x2x1024 (![0, 1, 2] : Fin 3 → Fin S32768x2x1024.rank)
  slices_S32768x2x2_S32768x1x1_0_0_0 : S32768x2x2.Slices ![0, 0, 0] S32768x1x1
  shapeCasts_S32768x1x1_S32768 : S32768x1x1.ShapeCasts S32768
  slices_S32768x2x2_S32768x1x1_0_1_1 : S32768x2x2.Slices ![0, 1, 1] S32768x1x1
  slices_S32768x2x2_S32768x1x1_0_0_1 : S32768x2x2.Slices ![0, 0, 1] S32768x1x1
  slices_S32768x2x2_S32768x1x1_0_1_0 : S32768x2x2.Slices ![0, 1, 0] S32768x1x1
  bcast_S_S32768 : S_.BroadcastsInDim S32768 (![] : Fin 0 → Fin S32768.rank)
  reducesTo_S32768_S_d0 : S32768.ReducesTo [0] S_
  dot_S32768x2x1024_S32768x2x1024_S32768x2x2_2_2_1_1_0_0_wf : DotDims.WF S32768x2x1024 S32768x2x1024 S32768x2x2 [2] [2] [1] [1] [0] [0]

variable [Facts₀]

def dot_S32768x2x1024_S32768x2x1024_S32768x2x2_2_2_1_1_0_0 : DotDims S32768x2x1024 S32768x2x1024 S32768x2x2 where
  lhsContracting := [2]
  rhsContracting := [2]
  lhsNonContracting := [1]
  rhsNonContracting := [1]
  lhsBatch := [0]
  rhsBatch := [0]
  wf := dot_S32768x2x1024_S32768x2x1024_S32768x2x2_2_2_1_1_0_0_wf

class Facts : Prop extends Facts₀ where

variable [Facts]
-- ==== Proof.CosLaw.lean ====
/-
  One sample's loss, written in the two arrangements the two programs use, and the law that joins them.

  A sample is four vectors of length n: the two predicted slots p0, p1 and the two target slots g0, g1. With
  ‖u‖ := max (√(Σ u²)) ε, the cosine of a predicted and a target slot is either the dot product divided by the product
  of the two norms, (Σ u·v) / (‖u‖·‖v‖), or the dot product of the two normalized vectors, Σ (u/‖u‖)·(v/‖v‖). The loss is
  1 minus half of the larger of the two assignment sums cos(p0,g0) + cos(p1,g1) and cos(p0,g1) + cos(p1,g0); "half" is
  either a product with 1/2 or a quotient by 2.

  Over finite entries every quantity is a real number and both norms are at least ε > 0, so the two cosines are the same
  real number (Σ (u/c)(v/d) = (Σ u·v)/(c·d) for c, d ≠ 0), and x · (1/2) = x / 2 on every extended real.
-/
import Idealize.ShloMosaic.PureOps.Ideal.Laws
import Idealize.ShloMosaic.Lib.ValueIdx

noncomputable section

namespace Cert.CosLoss

open Idealize.ShloMosaic

/-- The floor under every norm: the single-precision number nearest 1e-12. -/
def eps : EReal := Ideal.ofBits .f32 0x2B8CBCCC#32

/-- A slot's norm, floored at ε. -/
def nrm {n : ℕ} (u : Fin n → EReal) : EReal := max (Ideal.sqrt (∑ k, u k * u k)) eps

/-- The cosine as the dot product over the product of the norms. -/
def cosDot {n : ℕ} (u v : Fin n → EReal) : EReal := Ideal.div (∑ k, u k * v k) (nrm u * nrm v)

/-- The cosine as the dot product of the normalized vectors. -/
def cosUnit {n : ℕ} (u v : Fin n → EReal) : EReal := ∑ k, Ideal.div (u k) (nrm u) * Ideal.div (v k) (nrm v)

/-- The first of two numbers if it is at least the second, else the second. -/
def pick (a b : EReal) : EReal := Scalar.select (Ideal.cmp .oge a b) a b

/-- The loss with cosines as quotients of dot products, halved by a product with 1/2. -/
def lossDot {n : ℕ} (p0 p1 g0 g1 : Fin n → EReal) : EReal :=
  Ideal.ofBits .f32 0x3F800000#32
    - pick (cosDot p0 g0 + cosDot p1 g1) (cosDot p0 g1 + cosDot p1 g0) * Ideal.ofBits .f32 0x3F000000#32

/-- The loss with cosines of normalized vectors, halved by a quotient by 2. -/
def lossUnit {n : ℕ} (p0 p1 g0 g1 : Fin n → EReal) : EReal :=
  Ideal.ofBits .f32 0x3F800000#32
    - Ideal.div (pick (cosUnit p0 g0 + cosUnit p1 g1) (cosUnit p0 g1 + cosUnit p1 g0)) (Ideal.ofBits .f32 0x40000000#32)

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- ε is a positive real. -/
theorem eps_pos : ∃ e : ℝ, 0 < e ∧ eps = (e : EReal) := by
  refine ⟨(2 ^ 23 + 834764 : ℕ) * (2 : ℝ) ^ ((87 : ℤ) - 127 - 23), by positivity, ?_⟩
  unfold eps
  simp [Ideal.ofBits, Ideal.ieee]

/-- The pattern of 2.0 is the real 2, -/
theorem two_eq : Ideal.ofBits .f32 0x40000000#32 = ((2 : ℝ) : EReal) := by
  simp [Ideal.ofBits, Ideal.ieee, -EReal.coe_mul]; norm_num

/-- and the pattern of 0.5 is the real 1/2. -/
theorem half_eq : Ideal.ofBits .f32 0x3F000000#32 = ((1 / 2 : ℝ) : EReal) := by
  simp [Ideal.ofBits, Ideal.ieee, -EReal.coe_mul]; norm_num

/-- Half of an extended real as a product is its quotient by 2. -/
theorem mul_half (x : EReal) : x * Ideal.ofBits .f32 0x3F000000#32 = Ideal.div x (Ideal.ofBits .f32 0x40000000#32) := by
  rw [two_eq, half_eq, Ideal.div_coe (by norm_num : (2 : ℝ) ≠ 0)]

/-- The floored norm of a vector of reals is a positive real. -/
theorem nrm_coe {n : ℕ} (a : Fin n → ℝ) : ∃ c : ℝ, 0 < c ∧ nrm (fun k => (a k : EReal)) = (c : EReal) := by
  obtain ⟨e, he, hE⟩ := eps_pos
  refine ⟨max (Real.sqrt (∑ k, a k * a k)) e, lt_max_of_lt_right he, ?_⟩
  unfold nrm
  have h1 : (∑ k, ((a k : ℝ) : EReal) * ((a k : ℝ) : EReal)) = ((∑ k, a k * a k : ℝ) : EReal) := by
    rw [coe_sum]; exact Finset.sum_congr rfl fun k _ => (EReal.coe_mul _ _).symm
  rw [h1, Ideal.sqrt_coe, if_neg (not_lt.mpr (Finset.sum_nonneg fun k _ => mul_self_nonneg _)), hE]
  exact (EReal.coe_strictMono.monotone.map_max).symm

/-- THE LAW: over real entries the two cosines are one number. -/
theorem cos_eq {n : ℕ} (a b : Fin n → ℝ) :
    cosDot (fun k => (a k : EReal)) (fun k => (b k : EReal)) = cosUnit (fun k => (a k : EReal)) (fun k => (b k : EReal)) := by
  obtain ⟨c, hc, hC⟩ := nrm_coe a
  obtain ⟨d, hd, hD⟩ := nrm_coe b
  unfold cosDot cosUnit
  rw [hC, hD, ← EReal.coe_mul, Ideal.div_coe (mul_pos hc hd).ne']
  simp only [Ideal.div_coe hc.ne', Ideal.div_coe hd.ne', ← EReal.coe_mul]
  rw [← coe_sum, ← coe_sum, ← EReal.coe_mul]
  refine congrArg _ ?_
  rw [Finset.sum_mul]
  refine Finset.sum_congr rfl fun k _ => ?_
  field_simp

/-- So over finite entries the two losses are one number. -/
theorem loss_eq {n : ℕ} (p0 p1 g0 g1 : Fin n → EReal) (h0 : ∀ k, ∃ r : ℝ, p0 k = (r : EReal)) (h1 : ∀ k, ∃ r : ℝ, p1 k = (r : EReal))
    (h2 : ∀ k, ∃ r : ℝ, g0 k = (r : EReal)) (h3 : ∀ k, ∃ r : ℝ, g1 k = (r : EReal)) :
    lossDot p0 p1 g0 g1 = lossUnit p0 p1 g0 g1 := by
  choose a0 e0 using h0
  choose a1 e1 using h1
  choose b0 f0 using h2
  choose b1 f1 using h3
  obtain rfl : p0 = fun k => (a0 k : EReal) := funext e0
  obtain rfl : p1 = fun k => (a1 k : EReal) := funext e1
  obtain rfl : g0 = fun k => (b0 k : EReal) := funext f0
  obtain rfl : g1 = fun k => (b1 k : EReal) := funext f1
  unfold lossDot lossUnit
  rw [cos_eq, cos_eq, cos_eq, cos_eq, mul_half]

end Cert.CosLoss

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelRow.lean ====
/-
  What the kernel body stores for one sample of its block, at the ideal instance.

  A block is 256 samples by 2048 lanes: lanes 0 … 1023 of a row are the sample's slot 0, lanes 1024 … 2047 its slot 1,
  in the block of predictions and in the block of targets alike. The body slices the four slots out of the two blocks,
  takes for each slot its floored norm (the square root of the lane sum of its squares, at least ε), for each of the four
  pairs of a predicted and a target slot the lane sum of the products divided by the product of the two norms, and stores
  1 minus half of the larger assignment sum. So row p of the stored vector is `CosLoss.lossDot` of row p's four slots.
-/
import proofs.«166725_j65781719105714_1_alg».proof.Proof.Gen.KernelIdeal.Frame
import proofs.«166725_j65781719105714_1_alg».proof.Proof.CosLaw
import proofs.«166725_j65781719105714_1_alg».proof.Proof.LibRowOps
import Idealize.ShloMosaic.Lib.Pipeline.Value
import Idealize.ShloMosaic.Lib.ValueIdx
import Idealize.ShloMosaic.PureOps.Ideal.Laws

noncomputable section

namespace Cert.KernelIdeal.Rows

open Idealize.ShloMosaic Idealize.ShloMosaic.ValueIdx Cert.KernelIdeal Cert.KernelIdeal.Gen Cert.CosLoss

/-- Slot 0 of sample p of a block: the first 1024 lanes of row p. -/
def slot0 (x : Vec Ideal S256x2048 .f32) (p : Fin 256) : Fin 1024 → EReal :=
  fun k => x (ix2 p (⟨k.val, by have := k.isLt; omega⟩ : Fin 2048))

/-- Slot 1 of sample p of a block: the last 1024 lanes of row p. -/
def slot1 (x : Vec Ideal S256x2048 .f32) (p : Fin 256) : Fin 1024 → EReal :=
  fun k => x (ix2 p (⟨1024 + k.val, by have := k.isLt; omega⟩ : Fin 2048))

theorem zero2 : (![0, 0] : Fin 2 → Nat) = fun _ => 0 := funext fun a => by fin_cases a <;> rfl
theorem zero1 : (![0] : Fin 1 → Nat) = fun _ => 0 := funext fun a => by fin_cases a <;> rfl

/-- The slice at lane offset 0 reads slot 0, -/
theorem low_apply (x : Vec Ideal S256x2048 .f32) (p : Fin 256) (k : Fin 1024) :
    extractStridedSlice S256x1024 ![0, 0] (shapeCast S256x2048 x shapeCasts_S256x2048_S256x2048) slices_S256x2048_o0_0_S256x1024 (ix2 p k)
      = slot0 x p k := by
  rw [shapeCast_self]
  refine extractStridedSlice_apply _ _ _ _ _ fun a => ?_
  match a with
  | ⟨0, _⟩ => show p.val = 0 + p.val; omega
  | ⟨1, _⟩ => show k.val = 0 + k.val; omega

/-- and the slice at lane offset 1024 reads slot 1. -/
theorem high_apply (x : Vec Ideal S256x2048 .f32) (p : Fin 256) (k : Fin 1024) :
    extractStridedSlice S256x1024 ![0, 1024] (shapeCast S256x2048 x shapeCasts_S256x2048_S256x2048) slices_S256x2048_o0_1024_S256x1024 (ix2 p k)
      = slot1 x p k := by
  rw [shapeCast_self]
  refine extractStridedSlice_apply _ _ _ _ _ fun a => ?_
  match a with
  | ⟨0, _⟩ => show p.val = 0 + p.val; omega
  | ⟨1, _⟩ => show 1024 + k.val = 1024 + k.val; rfl

theorem pay4_apply (x : Vec Ideal S256x2048 .f32) (p : Fin 256) (k : Fin 1024) : k0_pay4 x (ix2 p k) = slot0 x p k := low_apply x p k
theorem pay5_apply (x : Vec Ideal S256x2048 .f32) (p : Fin 256) (k : Fin 1024) : k0_pay5 x (ix2 p k) = slot1 x p k := high_apply x p k
theorem pay6_apply (x : Vec Ideal S256x2048 .f32) (p : Fin 256) (k : Fin 1024) : k0_pay6 x (ix2 p k) = slot0 x p k := low_apply x p k
theorem pay7_apply (x : Vec Ideal S256x2048 .f32) (p : Fin 256) (k : Fin 1024) : k0_pay7 x (ix2 p k) = slot1 x p k := high_apply x p k

/-- The lane sum of the products of two [256, 1024] vectors, at row p, is the dot product of the two rows. -/
theorem dot_apply (a b : FVec Ideal S256x1024 .f32) (p : Fin 256) (u v : Fin 1024 → EReal)
    (ha : ∀ k, a (ix2 p k) = u k) (hb : ∀ k, b (ix2 p k) = v k) :
    multiReduction .add [1] S256 (mulf a b) 0x00000000#32 reduces_S256x1024_S256 (.inl rfl) rfl (ix1 p) = ∑ k, u k * v k := by
  refine (Cert.RowOps.laneSum_apply (mulf a b) 0x00000000#32 reduces_S256x1024_S256 (.inl rfl) rfl p).trans ?_
  exact Finset.sum_congr rfl fun k _ => by rw [mulf_apply, ha, hb]

/-- A slot's floored norm as the body computes it. -/
theorem norm_apply (a : FVec Ideal S256x1024 .f32) (p : Fin 256) (u : Fin 1024 → EReal) (ha : ∀ k, a (ix2 p k) = u k) :
    maximumf (sqrt (multiReduction .add [1] S256 (mulf a a) 0x00000000#32 reduces_S256x1024_S256 (.inl rfl) rfl))
      (broadcast S256 (Scalar.ofBits .f32 0x2B8CBCCC#32)) (ix1 p) = nrm u := by
  show max (Ideal.sqrt (multiReduction .add [1] S256 (mulf a a) 0x00000000#32 reduces_S256x1024_S256 (.inl rfl) rfl (ix1 p)))
      (Ideal.ofBits .f32 0x2B8CBCCC#32) = _
  rw [dot_apply a a p u u ha ha]
  rfl

theorem pay8_apply (x : Vec Ideal S256x2048 .f32) (p : Fin 256) : k0_pay8 x (ix1 p) = nrm (slot0 x p) :=
  norm_apply (k0_pay4 x) p _ (pay4_apply x p)
theorem pay9_apply (x : Vec Ideal S256x2048 .f32) (p : Fin 256) : k0_pay9 x (ix1 p) = nrm (slot1 x p) :=
  norm_apply (k0_pay5 x) p _ (pay5_apply x p)
theorem pay10_apply (x : Vec Ideal S256x2048 .f32) (p : Fin 256) : k0_pay10 x (ix1 p) = nrm (slot0 x p) :=
  norm_apply (k0_pay6 x) p _ (pay6_apply x p)
theorem pay11_apply (x : Vec Ideal S256x2048 .f32) (p : Fin 256) : k0_pay11 x (ix1 p) = nrm (slot1 x p) :=
  norm_apply (k0_pay7 x) p _ (pay7_apply x p)

/-- cos(p0, g0) as the body computes it, -/
theorem pay13_apply (x y : Vec Ideal S256x2048 .f32) (p : Fin 256) : k0_pay13 x y (ix1 p) = cosDot (slot0 x p) (slot0 y p) := by
  show Ideal.div (multiReduction .add [1] S256 (mulf (k0_pay4 x) (k0_pay6 y)) 0x00000000#32 reduces_S256x1024_S256 (.inl rfl) rfl (ix1 p))
      (k0_pay8 x (ix1 p) * k0_pay10 y (ix1 p)) = _
  rw [dot_apply _ _ p _ _ (pay4_apply x p) (pay6_apply y p), pay8_apply, pay10_apply]
  rfl

/-- cos(p0, g1), -/
theorem pay14_apply (x y : Vec Ideal S256x2048 .f32) (p : Fin 256) : k0_pay14 x y (ix1 p) = cosDot (slot0 x p) (slot1 y p) := by
  show Ideal.div (multiReduction .add [1] S256 (mulf (k0_pay4 x) (k0_pay7 y)) 0x00000000#32 reduces_S256x1024_S256 (.inl rfl) rfl (ix1 p))
      (k0_pay8 x (ix1 p) * k0_pay11 y (ix1 p)) = _
  rw [dot_apply _ _ p _ _ (pay4_apply x p) (pay7_apply y p), pay8_apply, pay11_apply]
  rfl

/-- cos(p1, g0), -/
theorem pay15_apply (x y : Vec Ideal S256x2048 .f32) (p : Fin 256) : k0_pay15 x y (ix1 p) = cosDot (slot1 x p) (slot0 y p) := by
  show Ideal.div (multiReduction .add [1] S256 (mulf (k0_pay5 x) (k0_pay6 y)) 0x00000000#32 reduces_S256x1024_S256 (.inl rfl) rfl (ix1 p))
      (k0_pay9 x (ix1 p) * k0_pay10 y (ix1 p)) = _
  rw [dot_apply _ _ p _ _ (pay5_apply x p) (pay6_apply y p), pay9_apply, pay10_apply]
  rfl

/-- the dot product of p1 and g1, -/
theorem pay12_apply (x y : Vec Ideal S256x2048 .f32) (p : Fin 256) : k0_pay12 x y (ix1 p) = ∑ k, slot1 x p k * slot1 y p k :=
  dot_apply _ _ p _ _ (pay5_apply x p) (pay7_apply y p)

/-- and the product of their norms. -/
theorem pay16_apply (x y : Vec Ideal S256x2048 .f32) (p : Fin 256) : k0_pay16 x y (ix1 p) = nrm (slot1 x p) * nrm (slot1 y p) := by
  show k0_pay9 x (ix1 p) * k0_pay11 y (ix1 p) = _
  rw [pay9_apply, pay11_apply]

/-- The stored value from the five vectors the first part of the body hands on: 1 − ½·pick. -/
theorem pay1_apply (v35 v37 v39 v41 v42 : FVec Ideal S256 .f32) (i : S256.Idx) :
    k0_pay1 v35 v37 v39 v41 v42 i
      = Ideal.ofBits .f32 0x3F800000#32
          - pick (v37 i + Ideal.div (v35 i) (v42 i)) (v39 i + v41 i) * Ideal.ofBits .f32 0x3F000000#32 := rfl

/-- THE ROW: what the body leaves in the output block, at sample p, is the loss of the sample's four slots with the
    cosines as quotients of dot products. -/
theorem out_row (x y : Vec Ideal S256x2048 .f32) (p : Fin 256) :
    out0_2 x y (ix1 p) = lossDot (slot0 x p) (slot1 x p) (slot0 y p) (slot1 y p) := by
  unfold out0_2
  rw [View.canon_unit_zero zero1]
  simp only [View.ld_unit_zero (S := S256x2048) zero2]
  rw [pay1_apply, pay12_apply, pay13_apply, pay14_apply, pay15_apply, pay16_apply]
  rfl

end Cert.KernelIdeal.Rows

end
-- ==== Proof.SampleLoss.lean ====
/-
  The whole result as one function of the two argument arrays.

  An argument array is [32768, 2, 1024]: sample b, slot s, lane k. The vector of per-sample losses is the sample loss of
  `CosLaw.lean` at each sample's four slots, in either arrangement, and the result is the mean of that vector: the sum
  of its 32768 entries, started from zero, divided by 32768. Over finite arguments the two arrangements give one vector.
-/
import proofs.«166725_j65781719105714_1_alg».proof.Proof.CosLaw
import Idealize.ShloMosaic.PureOps.Ideal.Laws
import Idealize.ShloMosaic.Lib.ValueIdx

noncomputable section

namespace Cert.CosLoss

open Idealize.ShloMosaic Idealize.ShloMosaic.ValueIdx

/-- The shape of an argument: samples × slots × lanes. -/
abbrev Arg : Shape := ⟨3, ![32768, 2, 1024]⟩
/-- The shape of the vector of per-sample losses. -/
abbrev Losses : Shape := ⟨1, ![32768]⟩
/-- The shape of the result: one number. -/
abbrev One : Shape := ⟨0, ![]⟩

/-- Slot s of sample b of an argument array. -/
def slot (x : Arg.Idx → EReal) (b : Fin 32768) (s : Fin 2) : Fin 1024 → EReal := fun k => x (ix3 b s k)

/-- The per-sample losses, cosines as quotients of dot products. -/
def lossesDot (x y : Arg.Idx → EReal) : Losses.Idx → EReal :=
  fun i => lossDot (slot x (i 0) 0) (slot x (i 0) 1) (slot y (i 0) 0) (slot y (i 0) 1)

/-- The per-sample losses, cosines of normalized vectors. -/
def lossesUnit (x y : Arg.Idx → EReal) : Losses.Idx → EReal :=
  fun i => lossUnit (slot x (i 0) 0) (slot x (i 0) 1) (slot y (i 0) 0) (slot y (i 0) 1)

/-- Over finite arguments the two vectors of losses are one. -/
theorem losses_eq (x y : Arg.Idx → EReal) (hx : ∀ i, ∃ r : ℝ, x i = (r : EReal)) (hy : ∀ i, ∃ r : ℝ, y i = (r : EReal)) :
    lossesDot x y = lossesUnit x y :=
  funext fun i => loss_eq _ _ _ _ (fun _ => hx _) (fun _ => hx _) (fun _ => hy _) (fun _ => hy _)

/-- The mean of the losses as both programs take it: the host's sum from zero, divided by 32768. -/
def meanOf (h : Losses.ReducesTo [0] One) (h0 : 0 < One.numel) (v : FVec Ideal Losses .f32) : FVec Ideal One .f32 :=
  Host.divf (Host.reduceAdd (F := Ideal) v (constant (F := Ideal) One .f32 0x00000000#32) h h0) (constant (F := Ideal) One .f32 0x47000000#32)

end Cert.CosLoss

end
-- ==== Proof.KernelArray.lean ====
/-
  From the kernel's blocks to its result, at the ideal instance.

  Before the kernel runs the host reshapes each argument [32768, 2, 1024] to [32768, 2048]: entry (b, 1024·s + k) of the
  reshaped array is entry (b, s, k) of the argument. Grid point t works on rows 256·t … 256·t + 255 of the two reshaped
  arrays and writes entries 256·t … 256·t + 255 of the vector of losses; the 128 points cover the vector. So the vector
  the kernel leaves is `CosLoss.lossesDot` of the two arguments, and the host lines after the kernel take its mean.
-/
import proofs.«166725_j65781719105714_1_alg».proof.Proof.Gen.KernelIdeal.Frame
import proofs.«166725_j65781719105714_1_alg».proof.Proof.KernelRow
import proofs.«166725_j65781719105714_1_alg».proof.Proof.SampleLoss
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arr

open Idealize.ShloMosaic.ValueIdx Cert.KernelIdeal Cert.KernelIdeal.Gen Cert.KernelIdeal.Rows Cert.CosLoss

variable (m : (ℓ : Loc nD τ sig) → Buf (Elt Ideal) ℓ) (ρ : Dev nD → PrngReg)

/-- The first argument as the kernel's first operand: its reshape to [32768, 2048]. -/
theorem V_pred (c : Dev nD) : (V m c main_v0 : S32768x2048.Idx → EReal)
    = shapeCast S32768x2048 (m ((c : Thread nD τ).loc main_arg0)) shapeCasts_S32768x2x1024_S32768x2048 := by
  show StableHlo.after hostOps0 (fun b => m (c, b)) (Proc.devRef .tc main_v0) = _
  after_results
  rfl

/-- The second argument as the kernel's second operand. -/
theorem V_gt (c : Dev nD) : (V m c main_v1 : S32768x2048.Idx → EReal)
    = shapeCast S32768x2048 (m ((c : Thread nD τ).loc main_arg1)) shapeCasts_S32768x2x1024_S32768x2048 := by
  show StableHlo.after hostOps0 (fun b => m (c, b)) (Proc.devRef .tc main_v1) = _
  after_results
  rfl

/-- The printed index maps over the grid: each window's block index on the sample axis is the point's number, and the
    input windows sit at lane block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 1) = t.val :=
  (by decide +kernel : ∀ t : Fin grid0.N, _)

/-- An entry of a reshaped argument is the argument's entry at the same row-major position. -/
theorem reshaped_apply (X : S32768x2x1024.Idx → EReal) (q : S32768x2048.Idx) (i : S32768x2x1024.Idx)
    (h0 : (i 0).val = (q 0).val) (h12 : (i 1).val * 1024 + (i 2).val = (q 1).val) :
    shapeCast S32768x2048 X shapeCasts_S32768x2x1024_S32768x2048 q = X i := by
  refine shapeCast_apply X _ q i ?_
  rw [Shape.rowMajor_val_three, Shape.rowMajor_val_two]
  show ((i 0).val * 2 + (i 1).val) * 1024 + (i 2).val = (q 0).val * 2048 + (q 1).val
  omega

/-- Row y₀ of the first input block at point t is sample 256·t + y₀ of the first argument. -/
theorem pred_block_apply (c : Dev nD) (t : Fin cfg0.N) (y : S256x2048.Idx) (i : S32768x2x1024.Idx)
    (h0 : (i 0).val = 256 * t.val + (y 0).val) (h12 : (i 1).val * 1024 + (i 2).val = (y 1).val) :
    (iblk m c 0 t : Vec Ideal S256x2048 .f32) y = (m ((c : Thread nD τ).loc main_arg0) : S32768x2x1024.Idx → EReal) i := by
  obtain ⟨e0, e1, -, -, -⟩ := idx_facts t
  unfold iblk
  rw [View.read_apply]
  show V m c main_v0 _ = _
  rw [V_pred]
  refine reshaped_apply _ _ i ?_ ?_
  · show (i 0).val = win0_0.index t (0 : Fin 2) * 256 + 1 * (y 0).val
    rw [e0, h0]; omega
  · show (i 1).val * 1024 + (i 2).val = win0_0.index t (1 : Fin 2) * 2048 + 1 * (y 1).val
    rw [e1, h12]; omega

/-- Row y₀ of the second input block at point t is sample 256·t + y₀ of the second argument. -/
theorem gt_block_apply (c : Dev nD) (t : Fin cfg0.N) (y : S256x2048.Idx) (i : S32768x2x1024.Idx)
    (h0 : (i 0).val = 256 * t.val + (y 0).val) (h12 : (i 1).val * 1024 + (i 2).val = (y 1).val) :
    (iblk m c 1 t : Vec Ideal S256x2048 .f32) y = (m ((c : Thread nD τ).loc main_arg1) : S32768x2x1024.Idx → EReal) i := by
  obtain ⟨-, -, e0, e1, -⟩ := idx_facts t
  unfold iblk
  rw [View.read_apply]
  show V m c main_v1 _ = _
  rw [V_gt]
  refine reshaped_apply _ _ i ?_ ?_
  · show (i 0).val = win0_1.index t (0 : Fin 2) * 256 + 1 * (y 0).val
    rw [e0, h0]; omega
  · show (i 1).val * 1024 + (i 2).val = win0_1.index t (1 : Fin 2) * 2048 + 1 * (y 1).val
    rw [e1, h12]; omega

/-- The two halves of a block's row are the two slots of the sample the row holds. -/
theorem slots_of_block (x : Vec Ideal S256x2048 .f32) (X : S32768x2x1024.Idx → EReal) (p : Fin 256) (b : Fin 32768)
    (hx : ∀ (y : S256x2048.Idx) (i : S32768x2x1024.Idx), (y 0).val = p.val → (i 0).val = b.val → (i 1).val * 1024 + (i 2).val = (y 1).val → x y = X i) :
    slot0 x p = slot X b 0 ∧ slot1 x p = slot X b 1 :=
  ⟨funext fun k => hx _ (ix3 b 0 k) rfl rfl (by show (0 : ℕ) * 1024 + k.val = k.val; omega),
   funext fun k => hx _ (ix3 b 1 k) rfl rfl (by show (1 : ℕ) * 1024 + k.val = 1024 + k.val; omega)⟩

/-- The vector of losses the kernel leaves, as a function of the two arguments. -/
abbrev kernelLosses (c : Dev nD) : S32768.Idx → EReal :=
  lossesDot (m ((c : Thread nD τ).loc main_arg0)) (m ((c : Thread nD τ).loc main_arg1))

/-- What point t writes back is block t of that vector. -/
theorem flushed_eq (c : Dev nD) (t : Fin cfg0.N) :
    (dats m 0 c).flushed 2 t = ((cfg0.win 2).blk t).view.read (Elt Ideal) (kernelLosses m c) := by
  show (cfg0.win 2).cut (grid0.coords t) ((dats m 0 c).after 2 t) = _
  rw [after0_2]
  obtain ⟨-, -, -, -, e2⟩ := idx_facts t
  have hN : cfg0.N = 128 := N_0
  funext j
  have hj : (j 0).val < 256 := (j 0).isLt
  have ht : t.val < 128 := hN ▸ t.isLt
  show out0_2 (iblk m c 0 t) (iblk m c 1 t) j = kernelLosses m c (((cfg0.win 2).blk t).view.emb j)
  have hemb : ((((cfg0.win 2).blk t).view.emb j) 0).val = 256 * t.val + (j 0).val := by
    show win0_2.index t (0 : Fin 1) * 256 + 1 * (j 0).val = _
    rw [e2]; omega
  obtain ⟨p, rfl⟩ : ∃ p : Fin 256, j = ix1 p := ⟨j 0, eq_ix1 j⟩
  rw [out_row]
  obtain ⟨a0, a1⟩ := slots_of_block (iblk m c 0 t) (m ((c : Thread nD τ).loc main_arg0)) p ((((cfg0.win 2).blk t).view.emb (ix1 p)) 0)
    (fun y i hy hi h12 => pred_block_apply m c t y i (by rw [hi, hemb, hy]; rfl) h12)
  obtain ⟨b0, b1⟩ := slots_of_block (iblk m c 1 t) (m ((c : Thread nD τ).loc main_arg1)) p ((((cfg0.win 2).blk t).view.emb (ix1 p)) 0)
    (fun y i hy hi h12 => gt_block_apply m c t y i (by rw [hi, hemb, hy]; rfl) h12)
  rw [a0, a1, b0, b1]
  rfl

/-- An index of the vector is in point t's block iff it lies in the block's 256 entries. -/
theorem mem_blk (t : Fin cfg0.N) (i : S32768.Idx) :
    i ∈ ((cfg0.win 2).blk t).view.set ↔ ∀ a : Fin 1, win0_2.index t a * S256.size a ≤ (i a).val ∧ (i a).val < win0_2.index t a * S256.size a + S256.size a := by
  show i ∈ ((View.whole main_v2).slice (win0_2.rect t)).set ↔ _
  rw [View.set_slice_whole, Rect.mem_set_unit]
  exact Iff.rfl

/-- Every entry of the vector is written by the point its sample belongs to. -/
theorem covered (i : S32768.Idx) : ∃ t : Fin cfg0.N, (cfg0.win 2).flush t = true ∧ i ∈ ((cfg0.win 2).blk t).view.set := by
  have hN : cfg0.N = 128 := N_0
  have hi : (i 0).val < 32768 := (i 0).isLt
  let t : Fin cfg0.N := ⟨(i 0).val / 256, by rw [hN]; omega⟩
  obtain ⟨-, -, -, -, e2⟩ := idx_facts t
  refine ⟨t, flush0_2 t, ?_⟩
  rw [mem_blk]
  intro a
  match a with
  | ⟨0, _⟩ =>
    show win0_2.index t (0 : Fin 1) * 256 ≤ (i 0).val ∧ (i 0).val < win0_2.index t (0 : Fin 1) * 256 + 256
    rw [e2]
    show (i 0).val / 256 * 256 ≤ (i 0).val ∧ (i 0).val < (i 0).val / 256 * 256 + 256
    omega

/-- So the kernel's output array ends holding the losses of the two arguments. -/
theorem final_losses (c : Dev nD) : (dats m 0 c).arrAt 2 cfg0.N = kernelLosses m c :=
  (dats m 0 c).arrAt_eq_of_cover 2 (kernelLosses m c) (fun t _ => flushed_eq m c t) covered

/-- The host lines after the kernel leave in the result buffer the mean of that vector. -/
theorem result_eq (c : Dev nD) :
    Pipeline.afterTail₀ cfgs (dats m) 0 (V0 m) [hostOps1] c main_v4 = meanOf reducesTo_S32768_S_d0 h_S_ (kernelLosses m c) := by
  unfold Pipeline.afterTail₀
  show StableHlo.after hostOps1 _ (Proc.devRef .tc main_v4) = _
  after_results
  rw [Pipeline.withArrays_arr spec0 launch0.win.arr_inj c _ _ 2, final_losses]
  rfl

/-- THE RUN, READ: every weakly fair execution ends with the result at the mean of the losses and the arguments unchanged. -/
theorem run : θ_run defs (onTc (τ := τ) (main (F := Ideal))) ⟨m, fun _ => 0, ρ⟩ fun r => ∀ c : Dev nD,
      r.2.mem ((c.tc : Thread nD τ).loc main_v4) = meanOf reducesTo_S32768_S_d0 h_S_ (kernelLosses m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Arr

end
-- ==== Proof.RefRow.lean ====
/-
  The reference, read one operation at a time, is the loss of normalized vectors and its mean.

  For each argument the reference sums the squares over the lanes (from zero), takes the square root, floors it at ε and
  divides every lane by it: the normalized vectors. The batched product contracts the lanes of a predicted and a target
  slot: entry (b, s, s') is the cosine of slot s of the prediction and slot s' of the target of sample b, in the
  arrangement `CosLoss.cosUnit`. The four entries are sliced out and added in pairs, the larger sum is chosen, halved by
  a quotient by 2 and taken from 1; the mean of those losses is the result.
-/
import proofs.«166725_j65781719105714_1_alg».proof.Proof.Gen.ReferenceIdeal.Read
import proofs.«166725_j65781719105714_1_alg».proof.Proof.SampleLoss
import Idealize.ShloMosaic.Lib.ValueIdx
import Idealize.ShloMosaic.PureOps.Ideal.Laws

noncomputable section

namespace Cert.ReferenceIdeal.Rows

open Idealize.ShloMosaic Idealize.ShloMosaic.ValueIdx Cert.ReferenceIdeal Cert.ReferenceIdeal.Gen Cert.ReferenceIdeal.Read Cert.CosLoss

variable (x0 x1 : (⟨S32768x2x1024, .f32⟩ : BufTy).Contents (Elt Ideal))

/-- The lane sum of squares of a predicted slot. -/
theorem sumsq_pred (b : Fin 32768) (s : Fin 2) : val_main_v1 (F := Ideal) x0 (ix2 b s) = ∑ k, slot x0 b s k * slot x0 b s k := by
  rw [val_main_v1_apply, val_main_cst_apply]
  show Ideal.ofBits .f32 0x00000000#32 + _ = _
  rw [Ideal.ofBits_zero_f32, zero_add]
  refine Finset.sum_congr rfl fun k _ => ?_
  have e : idx_main_v1 (ix2 b s) k = ix3 b s k := funext fun a => Fin.ext (by match a with | ⟨0, _⟩ => rfl | ⟨1, _⟩ => rfl | ⟨2, _⟩ => rfl)
  rw [e]
  rfl

/-- The lane sum of squares of a target slot. -/
theorem sumsq_gt (b : Fin 32768) (s : Fin 2) : val_main_v9 (F := Ideal) x1 (ix2 b s) = ∑ k, slot x1 b s k * slot x1 b s k := by
  rw [val_main_v9_apply, val_main_cst_1_apply]
  show Ideal.ofBits .f32 0x00000000#32 + _ = _
  rw [Ideal.ofBits_zero_f32, zero_add]
  refine Finset.sum_congr rfl fun k _ => ?_
  have e : idx_main_v9 (ix2 b s) k = ix3 b s k := funext fun a => Fin.ext (by match a with | ⟨0, _⟩ => rfl | ⟨1, _⟩ => rfl | ⟨2, _⟩ => rfl)
  rw [e]
  rfl

/-- The floored norm of a predicted slot, kept as a column. -/
theorem norm_pred (b : Fin 32768) (s : Fin 2) (u : Fin 1) : val_main_v5 (F := Ideal) x0 (ix3 b s u) = nrm (slot x0 b s) := by
  rw [val_main_v5_apply, val_main_v3_apply, val_main_v2_apply, val_main_v4_apply, val_main_cst_0_apply]
  have e : idx_main_v2 (ix3 b s u) = ix2 b s := funext fun a => Fin.ext (by match a with | ⟨0, _⟩ => rfl | ⟨1, _⟩ => rfl)
  rw [e, sumsq_pred]
  rfl

/-- The floored norm of a target slot, kept as a column. -/
theorem norm_gt (b : Fin 32768) (s : Fin 2) (u : Fin 1) : val_main_v13 (F := Ideal) x1 (ix3 b s u) = nrm (slot x1 b s) := by
  rw [val_main_v13_apply, val_main_v11_apply, val_main_v10_apply, val_main_v12_apply, val_main_cst_2_apply]
  have e : idx_main_v10 (ix3 b s u) = ix2 b s := funext fun a => Fin.ext (by match a with | ⟨0, _⟩ => rfl | ⟨1, _⟩ => rfl)
  rw [e, sumsq_gt]
  rfl

/-- A lane of a normalized predicted slot. -/
theorem unit_pred (b : Fin 32768) (s : Fin 2) (k : Fin 1024) :
    val_main_v7 (F := Ideal) x0 (ix3 b s k) = Ideal.div (slot x0 b s k) (nrm (slot x0 b s)) := by
  rw [val_main_v7_apply, val_main_v6_apply]
  have e : idx_main_v6 (ix3 b s k) = ix3 b s (0 : Fin 1) := funext fun a => Fin.ext (by match a with | ⟨0, _⟩ => rfl | ⟨1, _⟩ => rfl | ⟨2, _⟩ => rfl)
  rw [e, norm_pred]
  rfl

/-- A lane of a normalized target slot. -/
theorem unit_gt (b : Fin 32768) (s : Fin 2) (k : Fin 1024) :
    val_main_v15 (F := Ideal) x1 (ix3 b s k) = Ideal.div (slot x1 b s k) (nrm (slot x1 b s)) := by
  rw [val_main_v15_apply, val_main_v14_apply]
  have e : idx_main_v14 (ix3 b s k) = ix3 b s (0 : Fin 1) := funext fun a => Fin.ext (by match a with | ⟨0, _⟩ => rfl | ⟨1, _⟩ => rfl | ⟨2, _⟩ => rfl)
  rw [e, norm_gt]
  rfl

/-- Entry (b, s, s') of the batched product: the cosine of predicted slot s and target slot s' of sample b. -/
theorem cos_apply (b : Fin 32768) (s s' : Fin 2) :
    val_main_v16 (F := Ideal) x0 x1 (ix3 b s s') = cosUnit (slot x0 b s) (slot x1 b s') := by
  rw [val_main_v16_apply]
  refine Finset.sum_congr rfl fun k _ => ?_
  have el : lidx_main_v16 (ix3 b s s') k = ix3 b s k := funext fun a => Fin.ext (by match a with | ⟨0, _⟩ => rfl | ⟨1, _⟩ => rfl | ⟨2, _⟩ => rfl)
  have er : ridx_main_v16 (ix3 b s s') k = ix3 b s' k := funext fun a => Fin.ext (by match a with | ⟨0, _⟩ => rfl | ⟨1, _⟩ => rfl | ⟨2, _⟩ => rfl)
  rw [el, er, unit_pred, unit_gt]

/-- A sliced and flattened entry of the batched product, at sample b. -/
theorem entry_index (b : Fin 32768) (o1 o2 : ℕ) (h1 : o1 < 2) (h2 : o2 < 2) (i : S32768x2x2.Idx)
    (h0 : (i 0).val = b.val / 1) (e1 : (i 1).val = o1) (e2 : (i 2).val = o2) : i = ix3 b (⟨o1, h1⟩ : Fin 2) (⟨o2, h2⟩ : Fin 2) :=
  funext fun a => Fin.ext (by match a with | ⟨0, _⟩ => exact h0.trans (Nat.div_one _) | ⟨1, _⟩ => exact e1 | ⟨2, _⟩ => exact e2)

/-- The identity assignment's sum at sample b, -/
theorem sum_id_apply (b : Fin 32768) :
    val_main_v21 (F := Ideal) x0 x1 (ix1 b) = cosUnit (slot x0 b 0) (slot x1 b 0) + cosUnit (slot x0 b 1) (slot x1 b 1) := by
  rw [val_main_v21_apply, val_main_v18_apply, val_main_v17_apply, val_main_v20_apply, val_main_v19_apply,
    entry_index b 0 0 (by decide) (by decide) (idx_main_v17 (idx_main_v18 (ix1 b))) rfl rfl rfl,
    entry_index b 1 1 (by decide) (by decide) (idx_main_v19 (idx_main_v20 (ix1 b))) rfl rfl rfl, cos_apply, cos_apply]
  rfl

/-- and the swapped assignment's. -/
theorem sum_sw_apply (b : Fin 32768) :
    val_main_v26 (F := Ideal) x0 x1 (ix1 b) = cosUnit (slot x0 b 0) (slot x1 b 1) + cosUnit (slot x0 b 1) (slot x1 b 0) := by
  rw [val_main_v26_apply, val_main_v23_apply, val_main_v22_apply, val_main_v25_apply, val_main_v24_apply,
    entry_index b 0 1 (by decide) (by decide) (idx_main_v22 (idx_main_v23 (ix1 b))) rfl rfl rfl,
    entry_index b 1 0 (by decide) (by decide) (idx_main_v24 (idx_main_v25 (ix1 b))) rfl rfl rfl, cos_apply, cos_apply]
  rfl

/-- The vector of losses the reference computes. -/
theorem losses_eq : val_main_v32 (F := Ideal) x0 x1 = lossesUnit x0 x1 := by
  funext i
  obtain ⟨b, rfl⟩ : ∃ b : Fin 32768, i = ix1 b := ⟨i 0, eq_ix1 i⟩
  rw [val_main_v32_apply, val_main_v31_apply, val_main_cst_4_apply, val_main_v30_apply, val_main_v29_apply, val_main_cst_3_apply,
    val_main_v28_apply, val_main_v27_apply, sum_id_apply, sum_sw_apply]
  rfl

/-- THE REFERENCE'S RESULT: the mean of those losses. -/
theorem result_eq : val_main_v34 (F := Ideal) x0 x1 = meanOf reducesTo_S32768_S_d0 h_S_ (lossesUnit x0 x1) := by
  rw [← losses_eq]
  rfl

end Cert.ReferenceIdeal.Rows

end
-- ==== Proof.Finite.lean ====
/-
  The precondition, read back: every entry of both arguments is a real number.

  The precondition says that |x| < +∞ holds at every entry of each argument (an "all" over the whole array, for each of
  the two arrays, joined by "and"). On the extended reals |x| = max x (−x) is +∞ exactly at the two infinities, so the
  comparison holds exactly at the real numbers.
-/
import proofs.«166725_j65781719105714_1_alg».proof.Pre_finite_inputs
import proofs.«166725_j65781719105714_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs Cert.Pre_finite_inputs.Gen

instance : Subsingleton S_.Idx := ⟨fun a b => funext fun d => d.elim0⟩

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exfalso; simp [Ideal.cmp] at h
  | coe r => exact ⟨r, rfl⟩
  | top => exfalso; simp [Ideal.cmp] at h

/-- Under the precondition both arguments hold real numbers only. -/
theorem reals_of_pre (x y : FVec Ideal S32768x2x1024 .f32) (h : fn (F := Ideal) x y = fun _ => 1#1) :
    (∀ i, ∃ r : ℝ, x i = (r : EReal)) ∧ (∀ i, ∃ r : ℝ, y i = (r : EReal)) := by
  have h0 := congrFun h ValueIdx.ix0
  dsimp only [fn] at h0
  obtain ⟨ha, hb⟩ := IntOp.andi_eq_one.1 h0
  exact ⟨fun i => real_of_abs_lt _ (Host.reduce_andi_all _ _ _ _ _ ha i), fun i => real_of_abs_lt _ (Host.reduce_andi_all _ _ _ _ _ hb i)⟩

end Cert.Pre_finite_inputs.Finite

end
-- ==== Proof.lean ====
/-
  The certificate: a Pallas kernel for the two-slot matched cosine loss against its jnp reference, equal over the
  extended reals on finite inputs.

  Both programs take predictions and targets [32768, 2, 1024] (sample, slot, lane) and return one number: the mean over
  the samples of 1 − ½·max-by-comparison(cos(p0,g0) + cos(p1,g1), cos(p0,g1) + cos(p1,g0)), every norm floored at ε.
  The kernel computes a cosine as (Σ u·v)/(‖u‖·‖v‖) and halves by a product with ½; the reference normalizes the
  vectors first, contracts them, and halves by a quotient by 2. Over real entries every norm is a real ≥ ε > 0 and the
  two cosines are one real number (`CosLoss.cos_eq`); x·½ = x/2 on every extended real; the comparison, the
  subtraction from 1 and the mean are the same operations on both sides. The precondition gives the real entries.

  The three frames: the kernel's two are the generated frames, the reference's its generated run with the result
  dropped. The idealization rewrote nothing, so it preserves the kernel trivially.
-/
import proofs.«166725_j65781719105714_1_alg».proof.Defs
import proofs.«166725_j65781719105714_1_alg».proof.Proof.Gen.Kernel
import proofs.«166725_j65781719105714_1_alg».proof.Proof.Gen.Kernel.Skeleton
import proofs.«166725_j65781719105714_1_alg».proof.Proof.Gen.Kernel.Launch
import proofs.«166725_j65781719105714_1_alg».proof.Proof.Gen.Kernel.Points
import proofs.«166725_j65781719105714_1_alg».proof.Proof.Gen.Kernel.Frame
import proofs.«166725_j65781719105714_1_alg».proof.Proof.Gen.KernelIdeal
import proofs.«166725_j65781719105714_1_alg».proof.Proof.Gen.KernelIdeal.Skeleton
import proofs.«166725_j65781719105714_1_alg».proof.Proof.Gen.KernelIdeal.Launch
import proofs.«166725_j65781719105714_1_alg».proof.Proof.Gen.KernelIdeal.Points
import proofs.«166725_j65781719105714_1_alg».proof.Proof.Gen.KernelIdeal.Frame
import proofs.«166725_j65781719105714_1_alg».proof.Proof.Gen.ReferenceIdeal
import proofs.«166725_j65781719105714_1_alg».proof.Proof.Gen.Pre_finite_inputs
import proofs.«166725_j65781719105714_1_alg».proof.Proof.Gen.ReferenceIdeal.Run
import proofs.«166725_j65781719105714_1_alg».proof.Proof.Gen.ReferenceIdeal.Read
import proofs.«166725_j65781719105714_1_alg».proof.Proof.KernelArray
import proofs.«166725_j65781719105714_1_alg».proof.Proof.RefRow
import proofs.«166725_j65781719105714_1_alg».proof.Proof.Finite
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the mean of the per-sample losses of the same arguments; the kernel's losses are in the
    arrangement `lossesDot`, the reference's in `lossesUnit`, and on the real entries the precondition gives these are
    one vector. -/
theorem algebraic : Cert.algebraic_KernelIdeal_ReferenceIdeal := by
  intro m ρ m' ρ' hpre hagree
  refine ⟨fun c => Cert.CosLoss.meanOf Cert.KernelIdeal.Gen.reducesTo_S32768_S_d0 Cert.KernelIdeal.Gen.h_S_ (Cert.KernelIdeal.Arr.kernelLosses m c),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.Rows.result_eq, (hagree c).1, (hagree c).2]
  obtain ⟨hx, hy⟩ := Cert.Pre_finite_inputs.Finite.reals_of_pre _ _ (hpre c)
  rw [← Cert.CosLoss.losses_eq _ _ hx hy]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
